-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x64 .f32) (main_arg4 : FVec F S64 .f32) (main_arg5 : FVec F S64x40 .f32) (main_arg6 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg5
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x2 : Shape := ⟨2, ![100000, 2]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S1600000x64 : Shape := ⟨2, ![1600000, 64]⟩
abbrev S1x64 : Shape := ⟨2, ![1, 64]⟩
abbrev S100000x40 : Shape := ⟨2, ![100000, 40]⟩
abbrev S10000x2 : Shape := ⟨2, ![10000, 2]⟩
abbrev S10000x40 : Shape := ⟨2, ![10000, 40]⟩
abbrev S1600000x40 : Shape := ⟨2, ![1600000, 40]⟩
abbrev S1x40 : Shape := ⟨2, ![1, 40]⟩

abbrev nBuf : Space → Nat
  | .hbm => 71
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x1, .f32⟩
  | .hbm, ⟨39, _⟩ => ⟨S100000x2, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S1x64, .f32⟩
  | .hbm, ⟨55, _⟩ => ⟨S100000x40, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x40, .f32⟩
  | .hbm, ⟨65, _⟩ => ⟨S_, .f32⟩
  | .hbm, ⟨66, _⟩ => ⟨S100000x40, .f32⟩
  | .hbm, ⟨67, _⟩ => ⟨S1600000x1, .i32⟩
  | .hbm, ⟨68, _⟩ => ⟨S100000x40, .f32⟩
  | .hbm, ⟨69, _⟩ => ⟨S1x40, .f32⟩
  | .hbm, ⟨70, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x2, .f32⟩
  | .local _ .vmem, ⟨10, _⟩ => ⟨S10000x2, .f32⟩
  | .local _ .vmem, ⟨11, _⟩ => ⟨S1x64, .f32⟩
  | .local _ .vmem, ⟨12, _⟩ => ⟨S64x40, .f32⟩
  | .local _ .vmem, ⟨13, _⟩ => ⟨S10000x40, .f32⟩
  | .local _ .vmem, ⟨14, _⟩ => ⟨S10000x40, .f32⟩
  | .local _ .vmem, ⟨15, _⟩ => ⟨S10000x40, .f32⟩
  | .local _ .vmem, ⟨16, _⟩ => ⟨S10000x40, .f32⟩
  | .local _ .vmem, ⟨17, _⟩ => ⟨S10000x1, .f32⟩
  | .local _ .vmem, ⟨18, _⟩ => ⟨S10000x1, .f32⟩
  | .local _ .vmem, ⟨19, _⟩ => ⟨S1x40, .f32⟩
  | .local _ .vmem, ⟨20, _⟩ => ⟨S10000x40, .f32⟩
  | .local _ .vmem, ⟨21, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_10 : Ref sig .tc := ⟨.hbm, 56, rfl⟩
abbrev main_v33 : Ref sig .tc := ⟨.hbm, 57, rfl⟩
abbrev main_v34 : Ref sig .tc := ⟨.hbm, 58, rfl⟩
abbrev main_c_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_12 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  concatenates_S100000x1_S100000x1_S100000x2_d1 : Shape.Concatenates [S100000x1, S100000x1] S100000x2 1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  slices_S10000x2_o0_0_S10000x1 : S10000x2.Slices ![0, 0] S10000x1
  slices_S10000x2_o0_1_S10000x1 : S10000x2.Slices ![0, 1] S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  broadcasts_S10000x1_S10000x40 : S10000x1.Broadcasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  scatter_S100000_S1600000x1_S1600000_n_0_0_1_wf : ScatterDims.WF S100000 S1600000x1 S1600000 [] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x40_S10000x40_1_0_0_1_n_n_wf : DotDims.WF S10000x64 S64x40 S10000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x2.size a ≤ S100000x2.size a
  hwx1_1 : ∀ i : grid1.Coords, EltTy.bits .f32 = 32 ∨ (Rect.block (s := S100000x2) S10000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .f32 = 32 ∨ (Rect.block (s := S64x40) S64x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x40.size a ≤ S100000x40.size a
  hwx1_4 : ∀ i : grid1.Coords, EltTy.bits .f32 = 32 ∨ (Rect.block (s := S100000x40) S10000x40.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x40.size a ≤ S100000x40.size a
  hwx2_3 : ∀ i : grid2.Coords, EltTy.bits .f32 = 32 ∨ (Rect.block (s := S100000x40) S10000x40.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S10000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S10000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000x1, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .i1⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .i1⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S_, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x64, .f32⟩
  | .hbm, ⟨95, _⟩ => ⟨S100000x64, .f32⟩
  | .hbm, ⟨96, _⟩ => ⟨S100000x40, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x40, .f32⟩
  | .hbm, ⟨106, _⟩ => ⟨S_, .f32⟩
  | .hbm, ⟨107, _⟩ => ⟨S100000x40, .f32⟩
  | .hbm, ⟨108, _⟩ => ⟨S1600000x1, .i32⟩
  | .hbm, ⟨109, _⟩ => ⟨S100000x40, .f32⟩
  | .hbm, ⟨110, _⟩ => ⟨S100000x1, .f32⟩
  | .hbm, ⟨111, _⟩ => ⟨S100000x40, .f32⟩
  | .hbm, ⟨112, _⟩ => ⟨S100000x40, .f32⟩
  | .hbm, ⟨113, _⟩ => ⟨S1x40, .f32⟩
  | .hbm, ⟨114, _⟩ => ⟨S100000x40, .f32⟩
  | .hbm, ⟨115, _⟩ => ⟨S100000x40, .f32⟩
  | .hbm, ⟨116, _⟩ => ⟨S_, .f32⟩
  | .hbm, ⟨117, _⟩ => ⟨S100000x40, .f32⟩
  | .hbm, ⟨118, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call2_cst : Ref sig .tc := ⟨.hbm, 60, rfl⟩
abbrev main_call2_v0 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_cst_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_13 : Ref sig .tc := ⟨.hbm, 73, rfl⟩
abbrev main_v45 : Ref sig .tc := ⟨.hbm, 74, rfl⟩
abbrev main_v46 : Ref sig .tc := ⟨.hbm, 75, rfl⟩
abbrev main_cst_14 : Ref sig .tc := ⟨.hbm, 76, rfl⟩
abbrev main_v47 : Ref sig .tc := ⟨.hbm, 77, rfl⟩
abbrev main_v48 : Ref sig .tc := ⟨.hbm, 78, rfl⟩
abbrev main_cst_15 : Ref sig .tc := ⟨.hbm, 79, rfl⟩
abbrev main_call3_v0 : Ref sig .tc := ⟨.hbm, 80, rfl⟩
abbrev main_call3_v1 : Ref sig .tc := ⟨.hbm, 81, rfl⟩
abbrev main_v49 : Ref sig .tc := ⟨.hbm, 82, rfl⟩
abbrev main_cst_16 : Ref sig .tc := ⟨.hbm, 83, rfl⟩
abbrev main_v50 : Ref sig .tc := ⟨.hbm, 84, rfl⟩
abbrev main_v51 : Ref sig .tc := ⟨.hbm, 85, rfl⟩
abbrev main_cst_17 : Ref sig .tc := ⟨.hbm, 86, rfl⟩
abbrev main_v52 : Ref sig .tc := ⟨.hbm, 87, rfl⟩
abbrev main_v53 : Ref sig .tc := ⟨.hbm, 88, rfl⟩
abbrev main_cst_18 : Ref sig .tc := ⟨.hbm, 89, rfl⟩
abbrev main_call4_v0 : Ref sig .tc := ⟨.hbm, 90, rfl⟩
abbrev main_call4_v1 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_c_19 : Ref sig .tc := ⟨.hbm, 97, rfl⟩
abbrev main_v59 : Ref sig .tc := ⟨.hbm, 98, rfl⟩
abbrev main_v60 : Ref sig .tc := ⟨.hbm, 99, rfl⟩
abbrev main_c_20 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_21 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_call5_cst : Ref sig .tc := ⟨.hbm, 116, rfl⟩
abbrev main_call5_v0 : Ref sig .tc := ⟨.hbm, 117, rfl⟩
abbrev main_v75 : Ref sig .tc := ⟨.hbm, 118, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.Arrays.lean ====
/-
  The arrays each dense stage reads and writes, named at their literal shapes: x, the two norms (as columns and packed
  side by side), the weights, the biases as rows, the two aggregates, and what each stage leaves in its output array.
-/
import proofs.«131973_j59433757442077_1_alg».proof.Proof.Gen.KernelIdeal.Frame
import Idealize.ShloMosaic.PureOps.Ideal

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The node features x, 100000 × 128. -/
abbrev xArr (c : Dev nD) : FVec Ideal S100000x128 .f32 := V c main_arg0
/-- The source norm as a column, 100000 × 1. -/
abbrev nsCol (c : Dev nD) : FVec Ideal S100000x1 .f32 := V c main_v17
/-- The destination norm as a column, 100000 × 1. -/
abbrev ndCol (c : Dev nD) : FVec Ideal S100000x1 .f32 := V c main_v18
/-- The two norms side by side, 100000 × 2: column 0 the source norm, column 1 the destination norm. -/
abbrev normPair (c : Dev nD) : FVec Ideal S100000x2 .f32 := V c main_v19
/-- The first layer's weights, 128 × 64. -/
abbrev w1Arr (c : Dev nD) : FVec Ideal S128x64 .f32 := V c main_arg3
/-- The second layer's weights, 64 × 40. -/
abbrev w2Arr (c : Dev nD) : FVec Ideal S64x40 .f32 := V c main_arg5
/-- The first bias as a row, 1 × 64. -/
abbrev b1Row (c : Dev nD) : FVec Ideal S1x64 .f32 := V c main_v31
/-- The second bias as a row, 1 × 40. -/
abbrev b2Row (c : Dev nD) : FVec Ideal S1x40 .f32 := V c main_v43
/-- The first aggregate, 100000 × 64. -/
abbrev agg1Arr (c : Dev nD) : FVec Ideal S100000x64 .f32 := V c main_v30
/-- The second aggregate, 100000 × 40. -/
abbrev agg2Arr (c : Dev nD) : FVec Ideal S100000x40 .f32 := V c main_v42
/-- What the first stage's ten write-backs leave in its output array. -/
abbrev out0Arr (c : Dev nD) : FVec Ideal S100000x64 .f32 := (dat0 (F := Ideal) V c).arrAt 3 cfg0.N
/-- What the second stage's ten write-backs leave in its output array. -/
abbrev out1Arr (c : Dev nD) : FVec Ideal S100000x40 .f32 := (dat1 (F := Ideal) V c).arrAt 4 cfg1.N
/-- What the third stage's ten write-backs leave in its output array. -/
abbrev out2Arr (c : Dev nD) : FVec Ideal S100000x40 .f32 := (dat2 (F := Ideal) V c).arrAt 3 cfg2.N

end Cert.KernelIdeal.Hand

end
-- ==== Proof.RefDefs.lean ====
/-
  The two-layer graph convolution as the reference spells it, cut into the pieces both programs share: the degree
  norm of an index vector, the gather-and-scatter aggregation along the edges, and the three dense stages (scale rows
  and multiply by W1; scale, shift, clip, scale and multiply by W2; scale, shift and clip).
-/
import proofs.«131973_j59433757442077_1_alg».proof.Proof.Gen.ReferenceIdeal

noncomputable section

open Idealize.ShloMosaic Idealize.ShloMosaic.TcCoe Idealize.SL.Sem

namespace Cert.ReferenceIdeal.Hand

open Cert.ReferenceIdeal Cert.ReferenceIdeal.Gen

variable {F : FTy → Type} [FloatOps F]

/-- How many edges name each node in an index vector: ones scattered and added into zeros. -/
def degree (idx : IVec S1600000 32) : FVec F S100000 .f32 :=
  Host.scatterAdd scatter_S100000_S1600000x1_S1600000_n_0_0_1 (broadcastInDim S100000 ![] bcast_S_S100000 (constant S_ .f32 0x00000000#32))
    (broadcastInDim S1600000x1 ![0] bcast_S1600000_S1600000x1_0 idx) (broadcastInDim S1600000 ![] bcast_S_S1600000 (constant S_ .f32 0x3F800000#32))

/-- The degree norm: degree to the power −1/2 where the degree is positive, zero elsewhere. -/
def norm (idx : IVec S1600000 32) : FVec F S100000 .f32 :=
  select (cmpf (F := F) .ogt (degree idx) (broadcastInDim S100000 ![] bcast_S_S100000 (constant S_ .f32 0x00000000#32)))
    (Host.powf (degree idx) (broadcastInDim S100000 ![] bcast_S_S100000 (constant S_ .f32 0xBF000000#32)))
    (broadcastInDim S100000 ![] bcast_S_S100000 (id (constant S_ .f32 0x00000000#32)))

/-- A source index read the way array indexing reads it: a negative index counts from the end. -/
def wrapped (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- Aggregation along the edges of 64-wide rows: row src[e] of h added into row dst[e], for every edge e. -/
def aggregate64 (h : FVec F S100000x64 .f32) (src dst : IVec S1600000 32) : FVec F S100000x64 .f32 :=
  Host.scatterAdd scatter_S100000x64_S1600000x1_S1600000x64_1_0_0_1 (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 h (broadcastInDim S1600000x1 ![0] bcast_S1600000_S1600000x1_0 (wrapped src)))

/-- Aggregation along the edges of 40-wide rows. -/
def aggregate40 (h : FVec F S100000x40 .f32) (src dst : IVec S1600000 32) : FVec F S100000x40 .f32 :=
  Host.scatterAdd scatter_S100000x40_S1600000x1_S1600000x40_1_0_0_1 (broadcastInDim S100000x40 ![] bcast_S_S100000x40 (constant S_ .f32 0x00000000#32))
    (broadcastInDim S1600000x1 ![0] bcast_S1600000_S1600000x1_0 dst)
    (Host.gather gather_S100000x40_S1600000x1_S1600000x40_1_0_n_n_0_1_140 h (broadcastInDim S1600000x1 ![0] bcast_S1600000_S1600000x1_0 (wrapped src)))

/-- The first dense stage: rows of x scaled by the source norm, times W1. -/
def stage1 (x : FVec F S100000x128 .f32) (ns : FVec F S100000 .f32) (w : FVec F S128x64 .f32) : FVec F S100000x64 .f32 :=
  Host.dotGeneral dot_S100000x128_S128x64_S100000x64_1_0_0_1_n_n none
    (mulf x (broadcastInDim S100000x128 ![0, 1] bcast_S100000x1_S100000x128_0_1 (broadcastInDim S100000x1 ![0] bcast_S100000_S100000x1_0 ns))) w

/-- A 64-wide aggregate scaled by the destination norm, shifted by the bias and clipped below at zero. -/
def activate64 (a : FVec F S100000x64 .f32) (nd : FVec F S100000 .f32) (b : FVec F S64 .f32) : FVec F S100000x64 .f32 :=
  maximumf (addf (mulf a (broadcastInDim S100000x64 ![0, 1] bcast_S100000x1_S100000x64_0_1 (broadcastInDim S100000x1 ![0] bcast_S100000_S100000x1_0 nd)))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The second dense stage: the activated first layer, rows scaled by the source norm, times W2. -/
def stage2 (a : FVec F S100000x64 .f32) (ns nd : FVec F S100000 .f32) (b : FVec F S64 .f32) (w : FVec F S64x40 .f32) : FVec F S100000x40 .f32 :=
  Host.dotGeneral dot_S100000x64_S64x40_S100000x40_1_0_0_1_n_n none
    (mulf (activate64 a nd b) (broadcastInDim S100000x64 ![0, 1] bcast_S100000x1_S100000x64_0_1 (broadcastInDim S100000x1 ![0] bcast_S100000_S100000x1_0 ns))) w

/-- The last dense stage: a 40-wide aggregate scaled by the destination norm, shifted by the bias and clipped below at zero. -/
def stage3 (a : FVec F S100000x40 .f32) (nd : FVec F S100000 .f32) (b : FVec F S40 .f32) : FVec F S100000x40 .f32 :=
  maximumf (addf (mulf a (broadcastInDim S100000x40 ![0, 1] bcast_S100000x1_S100000x40_0_1 (broadcastInDim S100000x1 ![0] bcast_S100000_S100000x1_0 nd)))
      (broadcastInDim S100000x40 ![0, 1] bcast_S1x40_S100000x40_0_1 (broadcastInDim S1x40 ![1] bcast_S40_S1x40_1 b)))
    (broadcastInDim S100000x40 ![] bcast_S_S100000x40 (constant S_ .f32 0x00000000#32))

/-- The whole network: two rounds of scale, multiply, aggregate, scale, shift and clip. -/
def network (x : FVec F S100000x128 .f32) (src dst : IVec S1600000 32) (w1 : FVec F S128x64 .f32) (b1 : FVec F S64 .f32)
    (w2 : FVec F S64x40 .f32) (b2 : FVec F S40 .f32) : FVec F S100000x40 .f32 :=
  stage3 (aggregate40 (stage2 (aggregate64 (stage1 x (norm src) w1) src dst) (norm src) (norm dst) b1 w2) src dst) (norm dst) b2

end Cert.ReferenceIdeal.Hand

end
-- ==== Proof.HostChain.lean ====
/-
  What each buffer the dense stages read holds when its stage is entered, read back through @main's host stretches to
  the seven arguments: the two degree norms as columns and packed side by side, the biases as rows, and each aggregate
  as the gather-and-scatter of the stage before it.
-/
import proofs.«131973_j59433757442077_1_alg».proof.Proof.Gen.KernelIdeal.Frame
import proofs.«131973_j59433757442077_1_alg».proof.Proof.RefDefs
import Idealize.ShloMosaic.Lib.StableHlo.Run

set_option maxRecDepth 16384

noncomputable section

open Idealize.ShloMosaic Idealize.ShloMosaic.TcCoe Idealize.SL.Sem
open Idealize.ShloMosaic.StableHlo

namespace Cert.KernelIdeal.Hand

open Cert.KernelIdeal Cert.KernelIdeal.Gen
open Cert.ReferenceIdeal.Hand (norm aggregate64 aggregate40)

variable {F : FTy → Type} [FloatOps F]
variable (m : (ℓ : Loc nD τ sig) → Buf (Elt F) ℓ) (ρ : Dev nD → PrngReg)

/-! ## Before the first stage: the host operations that compute the norms write no argument -/

theorem W5_arg0 (c : Dev nD) : W5 m ρ c (Proc.devRef .tc main_arg0) = m ((c : Thread nD τ).loc main_arg0) := by
  show StableHlo.after hostOps0_4 (StableHlo.after hostOps0_3 (StableHlo.after hostOps0_2 (StableHlo.after hostOps0_1 (StableHlo.after hostOps0 (W0 m ρ c))))) (Proc.devRef .tc main_arg0) = _
  after_results
theorem W5_arg1 (c : Dev nD) : W5 m ρ c (Proc.devRef .tc main_arg1) = m ((c : Thread nD τ).loc main_arg1) := by
  show StableHlo.after hostOps0_4 (StableHlo.after hostOps0_3 (StableHlo.after hostOps0_2 (StableHlo.after hostOps0_1 (StableHlo.after hostOps0 (W0 m ρ c))))) (Proc.devRef .tc main_arg1) = _
  after_results
theorem W5_arg2 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) (Proc.devRef .tc main_arg2) = _
  after_results
theorem W5_arg3 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  after_results
theorem W5_arg4 (c : Dev nD) : W5 m ρ c (Proc.devRef .tc main_arg4) = m ((c : Thread nD τ).loc main_arg4) := by
  show StableHlo.after hostOps0_4 (StableHlo.after hostOps0_3 (StableHlo.after hostOps0_2 (StableHlo.after hostOps0_1 (StableHlo.after hostOps0 (W0 m ρ c))))) (Proc.devRef .tc main_arg4) = _
  after_results
theorem W5_arg5 (c : Dev nD) : W5 m ρ c (Proc.devRef .tc main_arg5) = m ((c : Thread nD τ).loc main_arg5) := by
  show StableHlo.after hostOps0_4 (StableHlo.after hostOps0_3 (StableHlo.after hostOps0_2 (StableHlo.after hostOps0_1 (StableHlo.after hostOps0 (W0 m ρ c))))) (Proc.devRef .tc main_arg5) = _
  after_results
theorem W5_arg6 (c : Dev nD) : W5 m ρ c (Proc.devRef .tc main_arg6) = m ((c : Thread nD τ).loc main_arg6) := by
  show StableHlo.after hostOps0_4 (StableHlo.after hostOps0_3 (StableHlo.after hostOps0_2 (StableHlo.after hostOps0_1 (StableHlo.after hostOps0 (W0 m ρ c))))) (Proc.devRef .tc main_arg6) = _
  after_results

set_option maxHeartbeats 2000000 in
/-- The source norm as a column: the degree norm of the source indices, cast [100000] → [100000, 1]. -/
theorem W5_v17 (c : Dev nD) : (W5 m ρ c (Proc.devRef .tc main_v17) : FVec F S100000x1 .f32)
    = shapeCast S100000x1 (norm (F := F) (m ((c : Thread nD τ).loc main_arg1))) shapeCasts_S100000_S100000x1 := by
  show StableHlo.after hostOps0_4 (StableHlo.after hostOps0_3 (StableHlo.after hostOps0_2 (StableHlo.after hostOps0_1 (StableHlo.after hostOps0 (W0 m ρ c))))) (Proc.devRef .tc main_v17) = _
  after_results
  rfl

set_option maxHeartbeats 2000000 in
/-- The destination norm as a column. -/
theorem W5_v18 (c : Dev nD) : (W5 m ρ c (Proc.devRef .tc main_v18) : FVec F S100000x1 .f32)
    = shapeCast S100000x1 (norm (F := F) (m ((c : Thread nD τ).loc main_arg2))) shapeCasts_S100000_S100000x1 := by
  show StableHlo.after hostOps0_4 (StableHlo.after hostOps0_3 (StableHlo.after hostOps0_2 (StableHlo.after hostOps0_1 (StableHlo.after hostOps0 (W0 m ρ c))))) (Proc.devRef .tc main_v18) = _
  after_results
  rfl

set_option maxHeartbeats 4000000 in
/-- The two norm columns side by side. -/
theorem W5_v19 (c : Dev nD) : (W5 m ρ c (Proc.devRef .tc main_v19) : FVec F S100000x2 .f32)
    = concatenate S100000x2 1
        [⟨S100000x1, shapeCast S100000x1 (norm (F := F) (m ((c : Thread nD τ).loc main_arg1))) shapeCasts_S100000_S100000x1⟩,
         ⟨S100000x1, shapeCast S100000x1 (norm (F := F) (m ((c : Thread nD τ).loc main_arg2))) shapeCasts_S100000_S100000x1⟩]
        concatenates_S100000x1_S100000x1_S100000x2_d1 := by
  show StableHlo.after hostOps0_4 (StableHlo.after hostOps0_3 (StableHlo.after hostOps0_2 (StableHlo.after hostOps0_1 (StableHlo.after hostOps0 (W0 m ρ c))))) (Proc.devRef .tc main_v19) = _
  after_results
  rfl

/-! ## Across the first stage: it writes its own output array only -/

/-- The first stage's output array at its exit is what its write-backs leave. -/
theorem W6_v20 (c : Dev nD) : W6 m ρ c (Proc.devRef .tc main_v20) = (dat0 (V5 m ρ) c).arrAt 3 cfg0.N := W6_arr m ρ c 3

theorem W6_arg1 (c : Dev nD) : W6 m ρ c (Proc.devRef .tc main_arg1) = m ((c : Thread nD τ).loc main_arg1) :=
  (W6_of_ne m ρ c main_arg1 (by decide)).trans (W5_arg1 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_v18 (c : Dev nD) : W6 m ρ c (Proc.devRef .tc main_v18) = W5 m ρ c (Proc.devRef .tc main_v18) := W6_of_ne m ρ c main_v18 (by decide)
theorem W6_v19 (c : Dev nD) : W6 m ρ c (Proc.devRef .tc main_v19) = W5 m ρ c (Proc.devRef .tc main_v19) := W6_of_ne m ρ c main_v19 (by decide)

/-! ## Between the first and the second stage: the first aggregation, and b1 as a row -/

set_option maxHeartbeats 2000000 in
/-- The first aggregate: the first stage's output gathered along the source indices and scattered onto the destinations. -/
theorem W7_v30 (c : Dev nD) : (W7 m ρ c (Proc.devRef .tc main_v30) : FVec F S100000x64 .f32)
    = aggregate64 (F := F) ((dat0 (V5 m ρ) c).arrAt 3 cfg0.N) (m ((c : Thread nD τ).loc main_arg1)) (m ((c : Thread nD τ).loc main_arg2)) := by
  show StableHlo.after hostOps1 (W6 m ρ c) (Proc.devRef .tc main_v30) = _
  after_results
  rw [W6_v20, W6_arg1, W6_arg2]
  unfold aggregate64 Cert.ReferenceIdeal.Hand.wrapped
  rfl

/-- The first bias as a row: cast [64] → [1, 64]. -/
theorem W7_v31 (c : Dev nD) : (W7 m ρ c (Proc.devRef .tc main_v31) : FVec F S1x64 .f32)
    = shapeCast S1x64 (m ((c : Thread nD τ).loc main_arg4)) shapeCasts_S64_S1x64 := by
  show StableHlo.after hostOps1 (W6 m ρ c) (Proc.devRef .tc main_v31) = _
  after_results
  rw [W6_arg4]
  rfl

theorem W7_v19 (c : Dev nD) : W7 m ρ c (Proc.devRef .tc main_v19) = W5 m ρ c (Proc.devRef .tc main_v19) := by
  refine Eq.trans ?_ (W6_v19 m ρ c)
  show StableHlo.after hostOps1 (W6 m ρ c) (Proc.devRef .tc main_v19) = _
  after_results

theorem W7_arg5 (c : Dev nD) : W7 m ρ c (Proc.devRef .tc main_arg5) = m ((c : Thread nD τ).loc main_arg5) := by
  refine Eq.trans ?_ (W6_arg5 m ρ c)
  show StableHlo.after hostOps1 (W6 m ρ c) (Proc.devRef .tc main_arg5) = _
  after_results

theorem W7_arg1 (c : Dev nD) : W7 m ρ c (Proc.devRef .tc main_arg1) = m ((c : Thread nD τ).loc main_arg1) := by
  refine Eq.trans ?_ (W6_arg1 m ρ c)
  show StableHlo.after hostOps1 (W6 m ρ c) (Proc.devRef .tc main_arg1) = _
  after_results
theorem W7_arg2 (c : Dev nD) : W7 m ρ c (Proc.devRef .tc main_arg2) = m ((c : Thread nD τ).loc main_arg2) := by
  refine Eq.trans ?_ (W6_arg2 m ρ c)
  show StableHlo.after hostOps1 (W6 m ρ c) (Proc.devRef .tc main_arg2) = _
  after_results
theorem W7_arg6 (c : Dev nD) : W7 m ρ c (Proc.devRef .tc main_arg6) = m ((c : Thread nD τ).loc main_arg6) := by
  refine Eq.trans ?_ (W6_arg6 m ρ c)
  show StableHlo.after hostOps1 (W6 m ρ c) (Proc.devRef .tc main_arg6) = _
  after_results
theorem W7_v18 (c : Dev nD) : W7 m ρ c (Proc.devRef .tc main_v18) = W5 m ρ c (Proc.devRef .tc main_v18) := by
  refine Eq.trans ?_ (W6_v18 m ρ c)
  show StableHlo.after hostOps1 (W6 m ρ c) (Proc.devRef .tc main_v18) = _
  after_results

/-! ## Across the second stage -/

/-- The second stage's output array at its exit is what its write-backs leave. -/
theorem W8_v32 (c : Dev nD) : W8 m ρ c (Proc.devRef .tc main_v32) = (dat1 (V7 m ρ) c).arrAt 4 cfg1.N := W8_arr m ρ c 4

theorem W8_arg1 (c : Dev nD) : W8 m ρ c (Proc.devRef .tc main_arg1) = m ((c : Thread nD τ).loc main_arg1) :=
  (W8_of_ne m ρ c main_arg1 (by decide)).trans (W7_arg1 m ρ c)
theorem W8_arg2 (c : Dev nD) : W8 m ρ c (Proc.devRef .tc main_arg2) = m ((c : Thread nD τ).loc main_arg2) :=
  (W8_of_ne m ρ c main_arg2 (by decide)).trans (W7_arg2 m ρ c)
theorem W8_arg6 (c : Dev nD) : W8 m ρ c (Proc.devRef .tc main_arg6) = m ((c : Thread nD τ).loc main_arg6) :=
  (W8_of_ne m ρ c main_arg6 (by decide)).trans (W7_arg6 m ρ c)
theorem W8_v18 (c : Dev nD) : W8 m ρ c (Proc.devRef .tc main_v18) = W5 m ρ c (Proc.devRef .tc main_v18) :=
  (W8_of_ne m ρ c main_v18 (by decide)).trans (W7_v18 m ρ c)

/-! ## Between the second and the third stage: the second aggregation, and b2 as a row -/

set_option maxHeartbeats 2000000 in
/-- The second aggregate: the second stage's output gathered along the source indices and scattered onto the destinations. -/
theorem W9_v42 (c : Dev nD) : (W9 m ρ c (Proc.devRef .tc main_v42) : FVec F S100000x40 .f32)
    = aggregate40 (F := F) ((dat1 (V7 m ρ) c).arrAt 4 cfg1.N) (m ((c : Thread nD τ).loc main_arg1)) (m ((c : Thread nD τ).loc main_arg2)) := by
  show StableHlo.after hostOps2 (W8 m ρ c) (Proc.devRef .tc main_v42) = _
  after_results
  rw [W8_v32, W8_arg1, W8_arg2]
  unfold aggregate40 Cert.ReferenceIdeal.Hand.wrapped
  rfl

/-- The second bias as a row: cast [40] → [1, 40]. -/
theorem W9_v43 (c : Dev nD) : (W9 m ρ c (Proc.devRef .tc main_v43) : FVec F S1x40 .f32)
    = shapeCast S1x40 (m ((c : Thread nD τ).loc main_arg6)) shapeCasts_S40_S1x40 := by
  show StableHlo.after hostOps2 (W8 m ρ c) (Proc.devRef .tc main_v43) = _
  after_results
  rw [W8_arg6]
  rfl

/-- The destination norm as a column, still what the first host stretch left. -/
theorem W9_v18 (c : Dev nD) : (W9 m ρ c (Proc.devRef .tc main_v18) : FVec F S100000x1 .f32)
    = shapeCast S100000x1 (norm (F := F) (m ((c : Thread nD τ).loc main_arg2))) shapeCasts_S100000_S100000x1 := by
  refine Eq.trans ?_ ((W8_v18 m ρ c).trans (W5_v18 m ρ c))
  show StableHlo.after hostOps2 (W8 m ρ c) (Proc.devRef .tc main_v18) = _
  after_results

/-! ## The result -/

/-- The result array at the last boundary is what the third stage's write-backs leave. -/
theorem W10_v44 (c : Dev nD) : W10 m ρ c (Proc.devRef .tc main_v44) = (dat2 (V9 m ρ) c).arrAt 3 cfg2.N := W10_arr m ρ c 3

end Cert.KernelIdeal.Hand

end
-- ==== Proof.LibKeepdims.lean ====
/-
  Keepdims layouts and last-axis reductions of a matrix, read at indices written by coordinates.

  A sum or maximum taken with the reduced axis kept prints as a reduction to a vector [a], a cast of that vector to a
  column [a, 1], and a broadcast of the column across [a, b]. Read at (p, c), the column is the vector at p and the
  broadcast is the column at p; a vector [n] viewed as [1, 1, n] keeps its entries. A reduction of a matrix [a, b]
  over its last axis reads, at row p, the entries (p, k) for every k: a float sum is their sum, a float maximum from
  −∞ is their maximum folded from −∞. The words of −∞ and of 1.0 denote −∞ and 1.
  Every statement is generic in the extents.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector [a] cast to a column [a, 1] reads, at (p, u), the vector at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] cast to [1, 1, n] reads, at (u, u', j), the vector at j. -/
theorem cast_vec_11n {n : ℕ} (x : (⟨1, ![n]⟩ : Shape).Idx → α) (h : (⟨1, ![n]⟩ : Shape).ShapeCasts ⟨3, ![1, 1, n]⟩)
    (u u' : Fin 1) (j : Fin n) : shapeCast ⟨3, ![1, 1, n]⟩ x h (ix3 u u' j) = x (ix1 j) :=
  shapeCast_apply x h _ _ (by
    have hu : u.val = 0 := by omega
    have hu' : u'.val = 0 := by omega
    rw [Shape.rowMajor_val_three, Shape.rowMajor_val_one]
    show j.val = (u.val * 1 + u'.val) * n + j.val
    rw [hu, hu']
    simp)

/-- Over row p of a matrix, the index a last-axis reduction inserts coordinate k into is (p, k). -/
theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- A float sum of a matrix over its last axis, at row p, is the sum of that row. -/
theorem sum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- The word of f32's −∞ denotes −∞. -/
theorem ofBits_neg_inf : Ideal.ofBits .f32 0xFF800000#32 = (⊥ : EReal) := by simp [Ideal.ofBits, Ideal.ieee]

/-- The word of f32's 1.0 denotes 1. -/
theorem ofBits_one_f32 : Ideal.ofBits .f32 0x3F800000#32 = (1 : EReal) :=
  IdealRules.sign_bit.ideal_onePat .f32

/-- The word of bf16's 1.0 denotes 1. -/
theorem ofBits_one_bf16 : Ideal.ofBits .bf16 0x3F80#16 = (1 : EReal) :=
  IdealRules.sign_bit.ideal_onePat .bf16

/-- A float maximum of a matrix over its last axis from −∞, at row p, is the maximum of that row from −∞. -/
theorem max_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (src ∘ h.lift (ix1 p)) = _
  rw [ofBits_neg_inf]
  exact congrArg (fun g : Fin b → EReal => (Finset.univ : Finset (Fin b)).fold max ⊥ g)
    (funext fun k => congrArg src (lift_row h p k))

end Cert.LibKeepdims

end
-- ==== Proof.Region0.lean ====
/-
  The first dense stage: each block of 10000 rows of x is scaled row by row by the source norm and multiplied by W1.
-/
import proofs.«131973_j59433757442077_1_alg».proof.Proof.Arrays
import proofs.«131973_j59433757442077_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

namespace Stage1

/-- The zero offsets of a whole-buffer access, as a constant function. -/
theorem zero_off : (![0, 0] : Fin 2 → Nat) = fun _ => 0 := funext fun a => by fin_cases a <;> rfl

/-- Row p of the scaled features against column q of the weights. -/
def rowDot {a : ℕ} (x : FVec Ideal ⟨2, ![a, 128]⟩ .f32) (ns : FVec Ideal ⟨2, ![a, 1]⟩ .f32) (w : FVec Ideal S128x64 .f32)
    (p : Fin a) (q : Fin 64) : EReal :=
  ∑ k : Fin 128, (x (ix2 p k) * ns (ix2 p (0 : Fin 1))) * w (ix2 k q)

/-- The operand indices of the block product at output index i and contraction position r, axis by axis: the left
    operand is read at (i 0, r), the right one at (r, i 1). -/
theorem lhs_mm_0 (i : S10000x64.Idx) (r : dot_S10000x128_S128x64_S10000x64_1_0_0_1_n_n.contr.Idx) :
    (dot_S10000x128_S128x64_S10000x64_1_0_0_1_n_n.lhsIdx i r 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_mm_1 (i : S10000x64.Idx) (r : dot_S10000x128_S128x64_S10000x64_1_0_0_1_n_n.contr.Idx) :
    (dot_S10000x128_S128x64_S10000x64_1_0_0_1_n_n.lhsIdx i r 1).val = (r ⟨0, by decide⟩).val :=
  dot_S10000x128_S128x64_S10000x64_1_0_0_1_n_n.lhsIdx_val_of_single rfl i r
theorem rhs_mm_0 (i : S10000x64.Idx) (r : dot_S10000x128_S128x64_S10000x64_1_0_0_1_n_n.contr.Idx) :
    (dot_S10000x128_S128x64_S10000x64_1_0_0_1_n_n.rhsIdx i r 0).val = (r ⟨0, by decide⟩).val :=
  dot_S10000x128_S128x64_S10000x64_1_0_0_1_n_n.rhsIdx_val_of_single rfl i r
theorem rhs_mm_1 (i : S10000x64.Idx) (r : dot_S10000x128_S128x64_S10000x64_1_0_0_1_n_n.contr.Idx) :
    (dot_S10000x128_S128x64_S10000x64_1_0_0_1_n_n.rhsIdx i r 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The block product into a zero accumulator, at (p, q): the sum over k of lhs[p,k] · rhs[k,q]. -/
theorem mm_apply (l : FVec Ideal S10000x128 .bf16) (r : FVec Ideal S128x64 .bf16) (p : Fin 10000) (q : Fin 64) :
    matmul dot_S10000x128_S128x64_S10000x64_1_0_0_1_n_n none l r (constant (F := Ideal) S10000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- What the body computes from its three loaded blocks, at (p, q). -/
theorem pay_apply (x0 : FVec Ideal S10000x128 .f32) (x1 : FVec Ideal S10000x1 .f32) (x2 : FVec Ideal S128x64 .f32)
    (p : Fin 10000) (q : Fin 64) :
    k0_pay1 (F := Ideal) x0 x1 x2 (ix2 p q) = rowDot x0 x1 x2 p q := by
  unfold k0_pay1 rowDot
  rw [mm_apply]
  refine Finset.sum_congr rfl fun k _ => ?_
  rw [truncf_apply, truncf_apply, mulf_apply, shapeCast_self, Cert.LibKeepdims.bcast_col]

/-- The whole output array as a function of the arrays the stage is entered with. -/
def stage1 (x : FVec Ideal S100000x128 .f32) (ns : FVec Ideal S100000x1 .f32) (w : FVec Ideal S128x64 .f32) :
    S100000x64.Idx → EReal :=
  fun i => rowDot x ns w (i 0) (i 1)

/-- The body's result at block index j is the whole-array function at index i, whenever the loaded blocks read, along row j 0
    and column j 1, what the arrays hold along row i 0 and column i 1. -/
theorem pay_eq_stage1 (x0 : FVec Ideal S10000x128 .f32) (x1 : FVec Ideal S10000x1 .f32) (x2 : FVec Ideal S128x64 .f32)
    (x : FVec Ideal S100000x128 .f32) (ns : FVec Ideal S100000x1 .f32) (w : FVec Ideal S128x64 .f32)
    (p : Fin 10000) (q : Fin 64) (p' : Fin 100000) (q' : Fin 64)
    (h0 : ∀ k : Fin 128, x0 (ix2 p k) = x (ix2 p' k))
    (h1 : x1 (ix2 p (0 : Fin 1)) = ns (ix2 p' (0 : Fin 1)))
    (h2 : ∀ k : Fin 128, x2 (ix2 k q) = w (ix2 k q')) :
    k0_pay1 (F := Ideal) x0 x1 x2 (ix2 p q) = stage1 x ns w (ix2 p' q') := by
  rw [pay_apply]
  show rowDot x0 x1 x2 p q = rowDot x ns w p' q'
  unfold rowDot
  refine Finset.sum_congr rfl fun k _ => ?_
  rw [h0 k, h1, h2 k]

/-- The index maps over the grid: point t takes row block t of x, of the norm column and of the output, and the
    one block of the weights. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the whole-array function. -/
theorem flushed_eq (c : Dev nD) (t : Fin cfg0.N) :
    (dat0 (F := Ideal) V c).flushed 3 t
      = ((cfg0.win 3).blk t).view.read (Elt Ideal) (stage1 (xArr V c) (nsCol V c) (w1Arr V c)) := by
  show (cfg0.win 3).cut (grid0.coords t) ((dat0 (F := Ideal) V c).after 3 t) = _
  rw [after0_3]
  unfold out0_3
  rw [View.canon_unit_zero zero_off]
  simp only [View.ld_unit_zero (S := S10000x128) zero_off, View.ld_unit_zero (S := S10000x1) zero_off, View.ld_unit_zero (S := S128x64) zero_off]
  obtain ⟨e00, e01, e10, e11, e20, e21, e30, e31⟩ := idx_facts t
  refine funext fun (j : S10000x64.Idx) => ?_
  obtain ⟨p, q, rfl⟩ : ∃ (p : Fin 10000) (q : Fin 64), j = ix2 p q := ⟨j 0, j 1, eq_ix2 j⟩
  show k0_pay1 (F := Ideal) (iblk0 V c 0 t) (iblk0 V c 1 t) (iblk0 V c 2 t) (ix2 p q)
    = stage1 (xArr V c) (nsCol V c) (w1Arr V c) (((cfg0.win 3).blk t).view.emb (ix2 p q))
  have hp : p.val < 10000 := p.isLt
  have ht : t.val < 10 := Nat.lt_of_lt_of_eq t.isLt N_0
  have hi : ((cfg0.win 3).blk t).view.emb (ix2 p q) = ix2 (⟨t.val * 10000 + p.val, by omega⟩ : Fin 100000) q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  rw [hi]
  refine pay_eq_stage1 _ _ _ _ _ _ p q _ q (fun k => ?_) ?_ (fun k => ?_)
  · show V c main_arg0 (((cfg0.win 0).blk t).view.emb (ix2 p k)) = V c main_arg0 _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · show V c main_v17 (((cfg0.win 1).blk t).view.emb (ix2 p (0 : Fin 1))) = V c main_v17 _
    refine congrArg _ (funext fun a => Fin.ext ?_)
    match a with
    | ⟨0, _⟩ => show win0_1.index t (0 : Fin 2) * 10000 + 1 * p.val = t.val * 10000 + p.val; omega
    | ⟨1, _⟩ => show win0_1.index t (1 : Fin 2) * 1 + 1 * 0 = 0; omega
  · show V c main_arg3 (((cfg0.win 2).blk t).view.emb (ix2 k q)) = V c main_arg3 _
    refine congrArg _ (funext fun a => Fin.ext ?_)
    match a with
    | ⟨0, _⟩ => show win0_2.index t (0 : Fin 2) * 128 + 1 * k.val = k.val; omega
    | ⟨1, _⟩ => show win0_2.index t (1 : Fin 2) * 64 + 1 * q.val = q.val; omega

/-- An index of the output array lies in point t's block iff each coordinate lies in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v20).slice (win0_3.rect t)).set ↔ _
  rw [View.set_slice_whole, Rect.mem_set_unit]
  exact Iff.rfl

/-- Row r of the output lies in the block of point r / 10000, and every point writes back. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 10000, Nat.lt_of_lt_of_eq (show (i 0).val / 10000 < 10 by omega) N_0.symm⟩
  obtain ⟨-, -, -, -, -, -, e30, e31⟩ := idx_facts t
  have ht : t.val = (i 0).val / 10000 := rfl
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- So the output array ends holding the whole-array function. -/
theorem out0_eq (c : Dev nD) : out0Arr V c = stage1 (xArr V c) (nsCol V c) (w1Arr V c) :=
  (dat0 (F := Ideal) V c).arrAt_eq_of_cover 3 (stage1 (xArr V c) (nsCol V c) (w1Arr V c)) (fun t _ => flushed_eq V c t) cover

end Stage1

/-- After the first stage its output array holds, at row p and column q, the sum over k of (x[p,k] · ns[p]) · W1[k,q],
    read off the arrays the stage is entered with. -/
theorem region0_apply (c : Dev nD) (p : Fin 100000) (q : Fin 64) :
    out0Arr V c (ix2 p q)
      = ∑ k : Fin 128, (xArr V c (ix2 p k) * nsCol V c (ix2 p (0 : Fin 1))) * w1Arr V c (ix2 k q) := by
  rw [Stage1.out0_eq]
  rfl

end Cert.KernelIdeal.Hand

end
-- ==== Proof.Region1.lean ====
/-
  The second dense stage: each block of 10000 rows of the first aggregate is scaled by the destination norm, shifted by
  b1, clipped below at zero, scaled by the source norm and multiplied by W2.
-/
import proofs.«131973_j59433757442077_1_alg».proof.Proof.Arrays
import proofs.«131973_j59433757442077_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

namespace Stage2

theorem lhs_stage2_0 (i : S10000x40.Idx) (q : dot_S10000x64_S64x40_S10000x40_1_0_0_1_n_n.contr.Idx) :
    (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
theorem lhs_stage2_1 (i : S10000x40.Idx) (q : dot_S10000x64_S64x40_S10000x40_1_0_0_1_n_n.contr.Idx) :
    (dot_S10000x64_S64x40_S10000x40_1_0_0_1_n_n.lhsIdx i q 1).val = (q ⟨0, by decide⟩).val :=
  dot_S10000x64_S64x40_S10000x40_1_0_0_1_n_n.lhsIdx_val_of_single rfl i q
theorem rhs_stage2_0 (i : S10000x40.Idx) (q : dot_S10000x64_S64x40_S10000x40_1_0_0_1_n_n.contr.Idx) :
    (dot_S10000x64_S64x40_S10000x40_1_0_0_1_n_n.rhsIdx i q 0).val = (q ⟨0, by decide⟩).val :=
  dot_S10000x64_S64x40_S10000x40_1_0_0_1_n_n.rhsIdx_val_of_single rfl i q
theorem rhs_stage2_1 (i : S10000x40.Idx) (q : dot_S10000x64_S64x40_S10000x40_1_0_0_1_n_n.contr.Idx) :
    (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- A block product into a zero accumulator, at row r and column q, is the sum over the contracted axis. -/
theorem matmul_block_apply (a : FVec Ideal S10000x64 .bf16) (b : FVec Ideal S64x40 .bf16) (r : Fin 10000) (q : Fin 40) :
    matmul dot_S10000x64_S64x40_S10000x40_1_0_0_1_n_n none a b (constant (F := Ideal) S10000x40 .f32 0x00000000#32) (ix2 r q)
      = ∑ k : Fin 64, a (ix2 r k) * b (ix2 k q) := by
  simp only [matmul]
  rw [Ideal.matmul_constant_zero_apply, ← Equiv.sum_comp (ValueIdx.contrEquiv1 dot_S10000x64_S64x40_S10000x40_1_0_0_1_n_n 64 rfl rfl).symm]
  refine Finset.sum_congr rfl fun k _ => ?_
  have hk := ValueIdx.contrEquiv1_symm_val dot_S10000x64_S64x40_S10000x40_1_0_0_1_n_n 64 rfl rfl k
  have el : dot_S10000x64_S64x40_S10000x40_1_0_0_1_n_n.lhsIdx (ix2 r q) ((ValueIdx.contrEquiv1 dot_S10000x64_S64x40_S10000x40_1_0_0_1_n_n 64 rfl rfl).symm k) = ix2 r k := funext fun ax => Fin.ext (by
    match ax with
    | ⟨0, _⟩ => exact lhs_stage2_0 _ _
    | ⟨1, _⟩ => exact (lhs_stage2_1 _ _).trans hk)
  have er : dot_S10000x64_S64x40_S10000x40_1_0_0_1_n_n.rhsIdx (ix2 r q) ((ValueIdx.contrEquiv1 dot_S10000x64_S64x40_S10000x40_1_0_0_1_n_n 64 rfl rfl).symm k) = ix2 k q := funext fun ax => Fin.ext (by
    match ax with
    | ⟨0, _⟩ => exact (rhs_stage2_0 _ _).trans hk
    | ⟨1, _⟩ => exact rhs_stage2_1 _ _)
  rw [el, er]

/-- The body's arithmetic on one block, at row r and column q. -/
theorem pay_apply (x0 : FVec Ideal S10000x64 .f32) (x1 : FVec Ideal S10000x2 .f32) (x2 : FVec Ideal S1x64 .f32)
    (x3 : FVec Ideal S64x40 .f32) (r : Fin 10000) (q : Fin 40) :
    k1_pay1 (F := Ideal) x0 x1 x2 x3 (ix2 r q)
      = ∑ k : Fin 64, (max (x0 (ix2 r k) * x1 (ix2 r (1 : Fin 2)) + x2 (ix2 (0 : Fin 1) k))
              (Ideal.ofBits .f32 0x00000000#32)
            * x1 (ix2 r (0 : Fin 2))) * x3 (ix2 k q) := by
  unfold k1_pay1
  rw [matmul_block_apply]
  refine Finset.sum_congr rfl fun k _ => ?_
  simp only [truncf_apply, mulf_apply, maximumf_apply, addf_apply, broadcast_apply, shapeCast_self]
  rw [Cert.LibKeepdims.bcast_col, Cert.LibKeepdims.bcast_col, broadcastTo_1b_ab_apply,
    slice2_axis1_apply 1 x1 _ r (0 : Fin 1) (1 : Fin 2) rfl, slice2_axis1_apply 0 x1 _ r (0 : Fin 1) (0 : Fin 2) rfl]
  rfl

theorem hz : (![0, 0] : Fin 2 → Nat) = fun _ => 0 := funext fun a => by
  match a with
  | ⟨0, _⟩ => rfl
  | ⟨1, _⟩ => rfl

/-- The block indices of the five windows over the ten points: the row-blocked windows sit at block (t, 0), the bias
    row and the weights at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row r of the aggregate's block at point t is row 10000 t + r of the aggregate. -/
theorem blk_agg_apply (c : Dev nD) (t : Fin cfg1.N) (r : Fin 10000) (k : Fin 64) (p : Fin 100000)
    (hp : p.val = t.val * 10000 + r.val) :
    (iblk1 V c 0 t : Vec Ideal S10000x64 .f32) (ix2 r k) = agg1Arr V c (ix2 p k) := by
  obtain ⟨e0, e1, -⟩ := block_indices t
  unfold iblk1
  rw [View.read_apply]
  show V c main_v30 _ = V c main_v30 _
  congr 1
  funext a
  apply Fin.ext
  match a with
  | ⟨0, _⟩ => show win1_0.index t (0 : Fin 2) * 10000 + 1 * r.val = p.val; omega
  | ⟨1, _⟩ => show win1_0.index t (1 : Fin 2) * 64 + 1 * k.val = k.val; omega

/-- Row r of the packed norms' block at point t is row 10000 t + r of the packed norms. -/
theorem blk_pair_apply (c : Dev nD) (t : Fin cfg1.N) (r : Fin 10000) (k : Fin 2) (p : Fin 100000)
    (hp : p.val = t.val * 10000 + r.val) :
    (iblk1 V c 1 t : Vec Ideal S10000x2 .f32) (ix2 r k) = normPair V c (ix2 p k) := by
  obtain ⟨-, -, e0, e1, -⟩ := block_indices t
  unfold iblk1
  rw [View.read_apply]
  show V c main_v19 _ = V c main_v19 _
  congr 1
  funext a
  apply Fin.ext
  match a with
  | ⟨0, _⟩ => show win1_1.index t (0 : Fin 2) * 10000 + 1 * r.val = p.val; omega
  | ⟨1, _⟩ => show win1_1.index t (1 : Fin 2) * 2 + 1 * k.val = k.val; omega

/-- The bias row's block at every point is the whole row. -/
theorem blk_b1_apply (c : Dev nD) (t : Fin cfg1.N) (u : Fin 1) (k : Fin 64) :
    (iblk1 V c 2 t : Vec Ideal S1x64 .f32) (ix2 u k) = b1Row V c (ix2 u k) := by
  obtain ⟨-, -, -, -, e0, e1, -⟩ := block_indices t
  unfold iblk1
  rw [View.read_apply]
  show V c main_v31 _ = V c main_v31 _
  congr 1
  funext a
  apply Fin.ext
  match a with
  | ⟨0, _⟩ => show win1_2.index t (0 : Fin 2) * 1 + 1 * u.val = u.val; omega
  | ⟨1, _⟩ => show win1_2.index t (1 : Fin 2) * 64 + 1 * k.val = k.val; omega

/-- The weights' block at every point is the whole matrix. -/
theorem blk_w2_apply (c : Dev nD) (t : Fin cfg1.N) (k : Fin 64) (q : Fin 40) :
    (iblk1 V c 3 t : Vec Ideal S64x40 .f32) (ix2 k q) = w2Arr V c (ix2 k q) := by
  obtain ⟨-, -, -, -, -, -, e0, e1, -⟩ := block_indices t
  unfold iblk1
  rw [View.read_apply]
  show V c main_arg5 _ = V c main_arg5 _
  congr 1
  funext a
  apply Fin.ext
  match a with
  | ⟨0, _⟩ => show win1_3.index t (0 : Fin 2) * 64 + 1 * k.val = k.val; omega
  | ⟨1, _⟩ => show win1_3.index t (1 : Fin 2) * 40 + 1 * q.val = q.val; omega

/-- The second stage at row p and column q, from the whole arrays. -/
def stage2At (c : Dev nD) (p : Fin 100000) (q : Fin 40) : EReal :=
  ∑ k : Fin 64, (max (agg1Arr V c (ix2 p k) * normPair V c (ix2 p (1 : Fin 2)) + b1Row V c (ix2 (0 : Fin 1) k))
          (Ideal.ofBits .f32 0x00000000#32)
        * normPair V c (ix2 p (0 : Fin 2))) * w2Arr V c (ix2 k q)

/-- The second stage as one 100000 × 40 array. -/
def stage2 (c : Dev nD) : FVec Ideal S100000x40 .f32 := fun i => stage2At V c (i 0) (i 1)

/-- What point t writes back is block t of the second stage's array. -/
theorem flushed_eq (c : Dev nD) (t : Fin cfg1.N) :
    (dat1 (F := Ideal) V c).flushed 4 t = ((cfg1.win 4).blk t).view.read (Elt Ideal) (stage2 V c) := by
  show (cfg1.win 4).cut (grid1.coords t) ((dat1 (F := Ideal) V c).after 4 t) = _
  rw [after1_4]
  unfold out1_4
  rw [View.canon_unit_zero hz]
  simp only [View.ld_unit_zero (S := S10000x64) hz, View.ld_unit_zero (S := S10000x2) hz,
    View.ld_unit_zero (S := S1x64) hz, View.ld_unit_zero (S := S64x40) hz]
  have ht : t.val < 10 := lt_of_lt_of_eq t.isLt N_1
  obtain ⟨-, -, -, -, -, -, -, -, e0, e1⟩ := block_indices t
  have key : ∀ j : S10000x40.Idx,
      k1_pay1 (F := Ideal) (iblk1 V c 0 t) (iblk1 V c 1 t) (iblk1 V c 2 t) (iblk1 V c 3 t) j
        = stage2 V c (((cfg1.win 4).blk t).view.emb j) := by
    intro j
    obtain ⟨r, q, rfl⟩ : ∃ (r : Fin 10000) (q : Fin 40), j = ix2 r q := ⟨j 0, j 1, eq_ix2 j⟩
    have hr : r.val < 10000 := r.isLt
    have hemb : ((cfg1.win 4).blk t).view.emb (ix2 r q) = ix2 (⟨t.val * 10000 + r.val, by omega⟩ : Fin 100000) q := by
      funext a
      apply Fin.ext
      match a with
      | ⟨0, _⟩ => show win1_4.index t (0 : Fin 2) * 10000 + 1 * r.val = t.val * 10000 + r.val; omega
      | ⟨1, _⟩ => show win1_4.index t (1 : Fin 2) * 40 + 1 * q.val = q.val; omega
    rw [hemb]
    refine (pay_apply _ _ _ _ r q).trans ?_
    show _ = stage2At V c ⟨t.val * 10000 + r.val, _⟩ q
    unfold stage2At
    refine Finset.sum_congr rfl fun k _ => ?_
    rw [blk_agg_apply V c t r k ⟨t.val * 10000 + r.val, by omega⟩ rfl,
      blk_pair_apply V c t r (1 : Fin 2) ⟨t.val * 10000 + r.val, by omega⟩ rfl,
      blk_pair_apply V c t r (0 : Fin 2) ⟨t.val * 10000 + r.val, by omega⟩ rfl,
      blk_b1_apply V c t (0 : Fin 1) k, blk_w2_apply V c t k q]
  funext j
  exact key j

/-- An index of the output array lies in point t's block iff each coordinate is in the block's range on its axis. -/
theorem mem_blk (t : Fin cfg1.N) (i : S100000x40.Idx) :
    i ∈ ((cfg1.win 4).blk t).view.set ↔ ∀ a : Fin 2, win1_4.index t a * S10000x40.size a ≤ (i a).val ∧ (i a).val < win1_4.index t a * S10000x40.size a + S10000x40.size a := by
  show i ∈ ((View.whole main_v32).slice (win1_4.rect t)).set ↔ _
  rw [View.set_slice_whole, Rect.mem_set_unit]
  exact Iff.rfl

/-- Row p lies in the block of point p / 10000, and every point writes back. -/
theorem cover (i : S100000x40.Idx) :
    ∃ t : Fin cfg1.N, (cfg1.win 4).flush t = true ∧ i ∈ ((cfg1.win 4).blk t).view.set := by
  have hi0 : (i 0).val < 100000 := (i 0).isLt
  have hi1 : (i 1).val < 40 := (i 1).isLt
  let t : Fin cfg1.N := ⟨(i 0).val / 10000, by rw [show cfg1.N = 10 from N_1]; omega⟩
  obtain ⟨-, -, -, -, -, -, -, -, e0, e1⟩ := block_indices t
  have e0' : win1_4.index t (0 : Fin 2) = (i 0).val / 10000 := e0
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 40 ≤ (i 1).val ∧ (i 1).val < win1_4.index t (1 : Fin 2) * 40 + 40; omega

/-- The output array after the ten write-backs is the second stage's array. -/
theorem out1_eq (c : Dev nD) : out1Arr V c = stage2 V c :=
  (dat1 (F := Ideal) V c).arrAt_eq_of_cover 4 (stage2 V c) (fun t _ => flushed_eq V c t) cover

end Stage2

/-- After the second stage its output array holds, at row p and column q, the sum over k of
    (max (a[p,k] · nd[p] + b1[k]) 0 · ns[p]) · W2[k,q]; the two norms are columns 1 and 0 of the packed pair. -/
theorem region1_apply (c : Dev nD) (p : Fin 100000) (q : Fin 40) :
    out1Arr V c (ix2 p q)
      = ∑ k : Fin 64, (max (agg1Arr V c (ix2 p k) * normPair V c (ix2 p (1 : Fin 2)) + b1Row V c (ix2 (0 : Fin 1) k))
              (Ideal.ofBits .f32 0x00000000#32)
            * normPair V c (ix2 p (0 : Fin 2))) * w2Arr V c (ix2 k q) :=
  congrFun (Stage2.out1_eq V c) (ix2 p q)

end Cert.KernelIdeal.Hand

end
-- ==== Proof.Region2.lean ====
/-
  The last dense stage: each block of 10000 rows of the second aggregate is scaled by the destination norm, shifted by b2
  and clipped below at zero.
-/
import proofs.«131973_j59433757442077_1_alg».proof.Proof.Arrays
import proofs.«131973_j59433757442077_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

namespace Stage3

/-- Both offsets of an access to a whole block are zero. -/
theorem offsets_zero : (![0, 0] : Fin 2 → Nat) = fun _ => 0 := funext fun a => by fin_cases a <;> rfl

/-- One entry of the stage's result from the entries it is made of: max (a · d + b) 0. -/
def reluAffine (a d b : EReal) : EReal := max (a * d + b) (Ideal.ofBits .f32 0x00000000#32)

/-- The whole result array as a function of the second aggregate, the norm column and the bias row. -/
def stage3 (a : FVec Ideal S100000x40 .f32) (d : FVec Ideal S100000x1 .f32) (b : FVec Ideal S1x40 .f32) :
    FVec Ideal S100000x40 .f32 :=
  fun i => reluAffine (a i) (d (ix2 (n0 := 100000) (i 0) (0 : Fin 1))) (b (ix2 (n1 := 40) (0 : Fin 1) (i 1)))

/-- The body's arithmetic at row r and column q of a block. -/
theorem payload_apply (x0 : FVec Ideal S10000x40 .f32) (x1 : FVec Ideal S10000x1 .f32) (x2 : FVec Ideal S1x40 .f32)
    (r : Fin 10000) (q : Fin 40) :
    k2_pay1 (F := Ideal) x0 x1 x2 (ix2 r q)
      = reluAffine (x0 (ix2 r q)) (x1 (ix2 r (0 : Fin 1))) (x2 (ix2 (0 : Fin 1) q)) := by
  unfold k2_pay1 reluAffine
  simp only [maximumf_apply, addf_apply, mulf_apply, shapeCast_self, broadcast_apply]
  rw [Cert.LibKeepdims.bcast_col, broadcastTo_1b_ab_apply]
  rfl

/-- Where each window's block sits at grid point t: row block t for the three tall windows, the only block for the bias. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A block's entry against the array's: the body's arithmetic on three block entries that are the arrays' entries
    at row k₀ and column k₁ is the result array's entry there. -/
theorem block_point (x0 : FVec Ideal S10000x40 .f32) (x1 : FVec Ideal S10000x1 .f32) (x2 : FVec Ideal S1x40 .f32)
    (a : FVec Ideal S100000x40 .f32) (d : FVec Ideal S100000x1 .f32) (b : FVec Ideal S1x40 .f32)
    (r : Fin 10000) (q : Fin 40) (k : S100000x40.Idx)
    (h0 : x0 (ix2 r q) = a k) (h1 : x1 (ix2 r (0 : Fin 1)) = d (ix2 (n0 := 100000) (k 0) (0 : Fin 1)))
    (h2 : x2 (ix2 (0 : Fin 1) q) = b (ix2 (n1 := 40) (0 : Fin 1) (k 1))) :
    k2_pay1 (F := Ideal) x0 x1 x2 (ix2 r q) = stage3 a d b k := by
  rw [payload_apply, h0, h1, h2]
  rfl

/-- The block of the second aggregate at grid point t is its rows 10000 t … 10000 t + 9999. -/
theorem aggBlock_apply (c : Dev nD) (t : Fin cfg2.N) (x : S10000x40.Idx) (k : S100000x40.Idx)
    (hk0 : (k 0).val = t.val * 10000 + (x 0).val) (hk1 : (k 1).val = (x 1).val) :
    (iblk2 V c 0 t : Vec Ideal S10000x40 .f32) x = agg2Arr V c k := by
  obtain ⟨e0, e1, -⟩ := block_indices t
  unfold iblk2
  rw [View.read_apply]
  show V c main_v42 _ = V c main_v42 _
  congr 1
  funext a
  apply Fin.ext
  match a with
  | ⟨0, _⟩ => show win2_0.index t (0 : Fin 2) * 10000 + 1 * (x 0).val = (k 0).val; rw [e0, hk0]; omega
  | ⟨1, _⟩ => show win2_0.index t (1 : Fin 2) * 40 + 1 * (x 1).val = (k 1).val; rw [e1, hk1]; omega

/-- The block of the norm column at grid point t is its rows 10000 t … 10000 t + 9999. -/
theorem normBlock_apply (c : Dev nD) (t : Fin cfg2.N) (x : S10000x1.Idx) (k : S100000x1.Idx)
    (hk0 : (k 0).val = t.val * 10000 + (x 0).val) (hk1 : (k 1).val = (x 1).val) :
    (iblk2 V c 1 t : Vec Ideal S10000x1 .f32) x = ndCol V c k := by
  obtain ⟨-, -, e0, e1, -⟩ := block_indices t
  unfold iblk2
  rw [View.read_apply]
  show V c main_v18 _ = V c main_v18 _
  congr 1
  funext a
  apply Fin.ext
  match a with
  | ⟨0, _⟩ => show win2_1.index t (0 : Fin 2) * 10000 + 1 * (x 0).val = (k 0).val; rw [e0, hk0]; omega
  | ⟨1, _⟩ => show win2_1.index t (1 : Fin 2) * 1 + 1 * (x 1).val = (k 1).val; rw [e1, hk1]; omega

/-- The block of the bias row at every grid point is the whole row. -/
theorem biasBlock_apply (c : Dev nD) (t : Fin cfg2.N) (x : S1x40.Idx) :
    (iblk2 V c 2 t : Vec Ideal S1x40 .f32) x = b2Row V c x := by
  obtain ⟨-, -, -, -, e0, e1, -⟩ := block_indices t
  unfold iblk2
  rw [View.read_apply]
  show V c main_v43 _ = V c main_v43 _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 40 + 1 * (x 1).val = (x 1).val; rw [e1]; omega

/-- What grid point t writes back is block t of the result array. -/
theorem flushed_eq (c : Dev nD) (t : Fin cfg2.N) :
    (dat2 V c).flushed 3 t
      = ((cfg2.win 3).blk t).view.read (Elt Ideal) (stage3 (agg2Arr V c) (ndCol V c) (b2Row V c)) := by
  show (cfg2.win 3).cut (grid2.coords t) ((dat2 V c).after 3 t) = _
  rw [after2_3]
  unfold out2_3
  rw [View.canon_unit_zero offsets_zero]
  simp only [View.ld_unit_zero (S := S10000x40) offsets_zero, View.ld_unit_zero (S := S10000x1) offsets_zero,
    View.ld_unit_zero (S := S1x40) offsets_zero]
  obtain ⟨-, -, -, -, -, -, e0, e1⟩ := block_indices t
  have key : ∀ (r : Fin 10000) (q : Fin 40),
      k2_pay1 (F := Ideal) (iblk2 V c 0 t) (iblk2 V c 1 t) (iblk2 V c 2 t) (ix2 r q)
        = stage3 (agg2Arr V c) (ndCol V c) (b2Row V c) (((cfg2.win 3).blk t).view.emb (ix2 r q)) := by
    intro r q
    have hk0 : ((((cfg2.win 3).blk t).view.emb (ix2 r q)) 0).val = t.val * 10000 + r.val := by
      show win2_3.index t (0 : Fin 2) * 10000 + 1 * r.val = _
      rw [e0]; omega
    have hk1 : ((((cfg2.win 3).blk t).view.emb (ix2 r q)) 1).val = q.val := by
      show win2_3.index t (1 : Fin 2) * 40 + 1 * q.val = _
      rw [e1]; omega
    refine block_point _ _ _ _ _ _ r q _ ?_ ?_ ?_
    · exact aggBlock_apply V c t _ _ hk0 hk1
    · exact normBlock_apply V c t _ _ hk0 rfl
    · rw [biasBlock_apply]
      exact congrArg (b2Row V c) (funext fun a => Fin.ext (match a with | ⟨0, _⟩ => rfl | ⟨1, _⟩ => hk1.symm))
  funext j
  obtain ⟨r, q, rfl⟩ : ∃ (r : Fin 10000) (q : Fin 40), j = ix2 r q := ⟨j 0, j 1, eq_ix2 j⟩
  exact key r q

/-- Every row lies in the block of the grid point its number divided by 10000 names. -/
theorem covered (i : S100000x40.Idx) :
    ∃ t : Fin cfg2.N, (cfg2.win 3).flush t = true ∧ i ∈ ((cfg2.win 3).blk t).view.set := by
  have hi0 : (i 0).val < 100000 := (i 0).isLt
  have hi1 : (i 1).val < 40 := (i 1).isLt
  have hN : cfg2.N = 10 := N_2
  let t : Fin cfg2.N := ⟨(i 0).val / 10000, by rw [hN]; omega⟩
  obtain ⟨-, -, -, -, -, -, e0, e1⟩ := block_indices t
  refine ⟨t, flush2_3 t, ?_⟩
  show i ∈ ((View.whole main_v44).slice (win2_3.rect t)).set
  rw [View.set_slice_whole, Rect.mem_set_unit]
  intro a
  have ht : t.val = (i 0).val / 10000 := rfl
  match a with
  | ⟨0, _⟩ =>
    show win2_3.index t (0 : Fin 2) * 10000 ≤ (i 0).val ∧ (i 0).val < win2_3.index t (0 : Fin 2) * 10000 + 10000
    rw [e0]; omega
  | ⟨1, _⟩ =>
    show win2_3.index t (1 : Fin 2) * 40 ≤ (i 1).val ∧ (i 1).val < win2_3.index t (1 : Fin 2) * 40 + 40
    rw [e1]; omega

/-- So the stage's output array ends holding the result array. -/
theorem out2_eq (c : Dev nD) : out2Arr V c = stage3 (agg2Arr V c) (ndCol V c) (b2Row V c) :=
  (dat2 V c).arrAt_eq_of_cover 3 _ (fun t _ => flushed_eq V c t) covered

end Stage3

/-- After the third stage its output array holds, at row p and column q, max (a[p,q] · nd[p] + b2[q]) 0. -/
theorem region2_apply (c : Dev nD) (p : Fin 100000) (q : Fin 40) :
    out2Arr V c (ix2 p q)
      = max (agg2Arr V c (ix2 p q) * ndCol V c (ix2 p (0 : Fin 1)) + b2Row V c (ix2 (0 : Fin 1) q))
          (Ideal.ofBits .f32 0x00000000#32) := by
  rw [Stage3.out2_eq]
  rfl

end Cert.KernelIdeal.Hand

end
-- ==== Proof.RefLayers.lean ====
/-
  The two-layer graph convolution as the reference spells it, cut into the pieces both programs share: the degree
  norm of an index vector, the gather-and-scatter aggregation along the edges, and the three dense stages (scale rows
  and multiply by W1; scale, shift, clip, scale and multiply by W2; scale, shift and clip), with each dense stage read
  at a row and a column over the extended reals.
-/
import proofs.«131973_j59433757442077_1_alg».proof.Proof.Gen.ReferenceIdeal
import proofs.«131973_j59433757442077_1_alg».proof.Proof.RefDefs
import proofs.«131973_j59433757442077_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.ReferenceIdeal.Hand

open Cert.ReferenceIdeal Cert.ReferenceIdeal.Gen

variable {F : FTy → Type} [FloatOps F]

/-! ## Broadcasts of a vector across a matrix, and of a scalar over an array, read at coordinates -/

/-- A vector [n] stood up as a column [n, 1] and spread across m columns reads, at (p, k), the vector at p. -/
theorem rows_apply {α : Type} {n m : ℕ} (h1 : (⟨1, ![n]⟩ : Shape).BroadcastsInDim ⟨2, ![n, 1]⟩ ![0])
    (h2 : (⟨2, ![n, 1]⟩ : Shape).BroadcastsInDim ⟨2, ![n, m]⟩ ![0, 1]) (v : (⟨1, ![n]⟩ : Shape).Idx → α) (p : Fin n) (k : Fin m) :
    broadcastInDim ⟨2, ![n, m]⟩ ![0, 1] h2 (broadcastInDim ⟨2, ![n, 1]⟩ ![0] h1 v) (ix2 p k) = v (ix1 p) := by
  refine (broadcastInDim_apply ![0, 1] h2 _ (ix2 p k) (ix2 p (0 : Fin 1)) fun a => ?_).trans
    (broadcastInDim_apply ![0] h1 v (ix2 p (0 : Fin 1)) (ix1 p) fun a => ?_)
  · match a with
    | ⟨0, _⟩ =>
      show p.val = if n = 1 then 0 else p.val
      split
      · have := p.isLt; omega
      · rfl
    | ⟨1, _⟩ =>
      show (0 : ℕ) = if (1 : ℕ) = 1 then 0 else k.val
      rw [if_pos rfl]
  · match a with
    | ⟨0, _⟩ =>
      show p.val = if n = 1 then 0 else p.val
      split
      · have := p.isLt; omega
      · rfl

/-- A vector [m] laid down as a row [1, m] and spread down n rows reads, at (p, k), the vector at k. -/
theorem cols_apply {α : Type} {n m : ℕ} (h1 : (⟨1, ![m]⟩ : Shape).BroadcastsInDim ⟨2, ![1, m]⟩ ![1])
    (h2 : (⟨2, ![1, m]⟩ : Shape).BroadcastsInDim ⟨2, ![n, m]⟩ ![0, 1]) (v : (⟨1, ![m]⟩ : Shape).Idx → α) (p : Fin n) (k : Fin m) :
    broadcastInDim ⟨2, ![n, m]⟩ ![0, 1] h2 (broadcastInDim ⟨2, ![1, m]⟩ ![1] h1 v) (ix2 p k) = v (ix1 k) := by
  refine (broadcastInDim_apply ![0, 1] h2 _ (ix2 p k) (ix2 (0 : Fin 1) k) fun a => ?_).trans
    (broadcastInDim_apply ![1] h1 v (ix2 (0 : Fin 1) k) (ix1 k) fun a => ?_)
  · match a with
    | ⟨0, _⟩ =>
      show (0 : ℕ) = if (1 : ℕ) = 1 then 0 else p.val
      rw [if_pos rfl]
    | ⟨1, _⟩ =>
      show k.val = if m = 1 then 0 else k.val
      split
      · have := k.isLt; omega
      · rfl
  · match a with
    | ⟨0, _⟩ =>
      show k.val = if m = 1 then 0 else k.val
      split
      · have := k.isLt; omega
      · rfl

/-- A scalar word spread over a whole array reads that word's value everywhere. -/
theorem word_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  broadcastInDim_apply ![] h (constant (F := Ideal) ⟨0, ![]⟩ .f32 w) j ix0 fun a => a.elim0

/-! ## The two matrix products read at a row and a column -/

/-- In the 100000×128 by 128×64 product the left operand is read at the result's row … -/
theorem lhs128_0 (i : S100000x64.Idx) (c : dot_S100000x128_S128x64_S100000x64_1_0_0_1_n_n.contr.Idx) :
    (dot_S100000x128_S128x64_S100000x64_1_0_0_1_n_n.lhsIdx i c 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
/-- … and at the contracted coordinate as its column; -/
theorem lhs128_1 (i : S100000x64.Idx) (c : dot_S100000x128_S128x64_S100000x64_1_0_0_1_n_n.contr.Idx) :
    (dot_S100000x128_S128x64_S100000x64_1_0_0_1_n_n.lhsIdx i c 1).val = (c ⟨0, by decide⟩).val :=
  dot_S100000x128_S128x64_S100000x64_1_0_0_1_n_n.lhsIdx_val_of_single rfl i c
/-- the right operand is read at the contracted coordinate as its row … -/
theorem rhs128_0 (i : S100000x64.Idx) (c : dot_S100000x128_S128x64_S100000x64_1_0_0_1_n_n.contr.Idx) :
    (dot_S100000x128_S128x64_S100000x64_1_0_0_1_n_n.rhsIdx i c 0).val = (c ⟨0, by decide⟩).val :=
  dot_S100000x128_S128x64_S100000x64_1_0_0_1_n_n.rhsIdx_val_of_single rfl i c
/-- … and at the result's column. -/
theorem rhs128_1 (i : S100000x64.Idx) (c : dot_S100000x128_S128x64_S100000x64_1_0_0_1_n_n.contr.Idx) :
    (dot_S100000x128_S128x64_S100000x64_1_0_0_1_n_n.rhsIdx i c 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The 100000×128 by 128×64 product over the extended reals at row p and column q: the sum over k of y[p,k] · w[k,q]. -/
theorem dot128_apply (y : FVec Ideal S100000x128 .f32) (w : FVec Ideal S128x64 .f32) (p : Fin 100000) (q : Fin 64) :
    Host.dotGeneral dot_S100000x128_S128x64_S100000x64_1_0_0_1_n_n none y w (ix2 p q) = ∑ k : Fin 128, y (ix2 p k) * w (ix2 k q) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 p q) ((contrEquiv1 dot_S100000x128_S128x64_S100000x64_1_0_0_1_n_n 128 rfl rfl).symm k) = ix2 p k := funext fun a => Fin.ext (by
    match a with
    | ⟨0, _⟩ => exact lhs128_0 _ _
    | ⟨1, _⟩ => exact (lhs128_1 _ _).trans hk)
  have er : dot_S100000x128_S128x64_S100000x64_1_0_0_1_n_n.rhsIdx (ix2 p q) ((contrEquiv1 dot_S100000x128_S128x64_S100000x64_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- In the 100000×64 by 64×40 product the left operand is read at the result's row … -/
theorem lhs64_0 (i : S100000x40.Idx) (c : dot_S100000x64_S64x40_S100000x40_1_0_0_1_n_n.contr.Idx) :
    (dot_S100000x64_S64x40_S100000x40_1_0_0_1_n_n.lhsIdx i c 0).val = (i 0).val := by
  unfold DotDims.lhsIdx
  rw [dif_neg (show ¬(0 : Fin S100000x64.rank) ∈ dot_S100000x64_S64x40_S100000x40_1_0_0_1_n_n.lhsBatch by decide), dif_pos (show (0 : Fin S100000x64.rank) ∈ dot_S100000x64_S64x40_S100000x40_1_0_0_1_n_n.lhsNonContracting by decide)]
  rfl
/-- … and at the contracted coordinate as its column; -/
theorem lhs64_1 (i : S100000x40.Idx) (c : dot_S100000x64_S64x40_S100000x40_1_0_0_1_n_n.contr.Idx) :
    (dot_S100000x64_S64x40_S100000x40_1_0_0_1_n_n.lhsIdx i c 1).val = (c ⟨0, by decide⟩).val :=
  dot_S100000x64_S64x40_S100000x40_1_0_0_1_n_n.lhsIdx_val_of_single rfl i c
/-- the right operand is read at the contracted coordinate as its row … -/
theorem rhs64_0 (i : S100000x40.Idx) (c : dot_S100000x64_S64x40_S100000x40_1_0_0_1_n_n.contr.Idx) :
    (dot_S100000x64_S64x40_S100000x40_1_0_0_1_n_n.rhsIdx i c 0).val = (c ⟨0, by decide⟩).val :=
  dot_S100000x64_S64x40_S100000x40_1_0_0_1_n_n.rhsIdx_val_of_single rfl i c
/-- … and at the result's column. -/
theorem rhs64_1 (i : S100000x40.Idx) (c : dot_S100000x64_S64x40_S100000x40_1_0_0_1_n_n.contr.Idx) :
    (dot_S100000x64_S64x40_S100000x40_1_0_0_1_n_n.rhsIdx i c 1).val = (i 1).val := by
  unfold DotDims.rhsIdx
  rw [dif_neg (show ¬(1 : Fin S64x40.rank) ∈ dot_S100000x64_S64x40_S100000x40_1_0_0_1_n_n.rhsBatch by decide), dif_pos (show (1 : Fin S64x40.rank) ∈ dot_S100000x64_S64x40_S100000x40_1_0_0_1_n_n.rhsNonContracting by decide)]
  rfl

/-- The 100000×64 by 64×40 product over the extended reals at row p and column q: the sum over k of y[p,k] · w[k,q]. -/
theorem dot64_apply (y : FVec Ideal S100000x64 .f32) (w : FVec Ideal S64x40 .f32) (p : Fin 100000) (q : Fin 40) :
    Host.dotGeneral dot_S100000x64_S64x40_S100000x40_1_0_0_1_n_n none y w (ix2 p q) = ∑ k : Fin 64, y (ix2 p k) * w (ix2 k q) := by
  simp only [Host.dotGeneral]
  rw [Ideal.dotGeneral_apply, ← Equiv.sum_comp (contrEquiv1 dot_S100000x64_S64x40_S100000x40_1_0_0_1_n_n 64 rfl rfl).symm]
  refine Finset.sum_congr rfl fun k _ => ?_
  have hk := contrEquiv1_symm_val dot_S100000x64_S64x40_S100000x40_1_0_0_1_n_n 64 rfl rfl k
  have el : dot_S100000x64_S64x40_S100000x40_1_0_0_1_n_n.lhsIdx (ix2 p q) ((contrEquiv1 dot_S100000x64_S64x40_S100000x40_1_0_0_1_n_n 64 rfl rfl).symm k) = ix2 p k := funext fun a => Fin.ext (by
    match a with
    | ⟨0, _⟩ => exact lhs64_0 _ _
    | ⟨1, _⟩ => exact (lhs64_1 _ _).trans hk)
  have er : dot_S100000x64_S64x40_S100000x40_1_0_0_1_n_n.rhsIdx (ix2 p q) ((contrEquiv1 dot_S100000x64_S64x40_S100000x40_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ## The dense stages read at a row and a column -/

/-- The activation of a 64-wide aggregate at row p and column k: max (a[p,k] · nd[p] + b[k]) 0. -/
theorem activate64_apply (a : FVec Ideal S100000x64 .f32) (nd : FVec Ideal S100000 .f32) (b : FVec Ideal S64 .f32)
    (p : Fin 100000) (k : Fin 64) :
    activate64 (F := Ideal) a nd b (ix2 p k) = max (a (ix2 p k) * nd (ix1 p) + b (ix1 k)) (Ideal.ofBits .f32 0x00000000#32) := by
  unfold activate64
  rw [maximumf_apply, addf_apply, mulf_apply, rows_apply, cols_apply, word_apply]

/-- The first dense stage at row p and column q: the sum over k of (x[p,k] · ns[p]) · W1[k,q]. -/
theorem stage1_apply (x : FVec Ideal S100000x128 .f32) (ns : FVec Ideal S100000 .f32) (w : FVec Ideal S128x64 .f32)
    (p : Fin 100000) (q : Fin 64) :
    stage1 (F := Ideal) x ns w (ix2 p q) = ∑ k : Fin 128, (x (ix2 p k) * ns (ix1 p)) * w (ix2 k q) := by
  unfold stage1
  rw [dot128_apply]
  refine Finset.sum_congr rfl fun k _ => ?_
  rw [mulf_apply, rows_apply]

/-- The second dense stage at row p and column q: the sum over k of (max (a[p,k] · nd[p] + b[k]) 0 · ns[p]) · W2[k,q]. -/
theorem stage2_apply (a : FVec Ideal S100000x64 .f32) (ns nd : FVec Ideal S100000 .f32) (b : FVec Ideal S64 .f32)
    (w : FVec Ideal S64x40 .f32) (p : Fin 100000) (q : Fin 40) :
    stage2 (F := Ideal) a ns nd b w (ix2 p q)
      = ∑ k : Fin 64, (max (a (ix2 p k) * nd (ix1 p) + b (ix1 k)) (Ideal.ofBits .f32 0x00000000#32) * ns (ix1 p)) * w (ix2 k q) := by
  unfold stage2
  rw [dot64_apply]
  refine Finset.sum_congr rfl fun k _ => ?_
  rw [mulf_apply, rows_apply, activate64_apply]

/-- The last dense stage at row p and column q: max (a[p,q] · nd[p] + b[q]) 0. -/
theorem stage3_apply (a : FVec Ideal S100000x40 .f32) (nd : FVec Ideal S100000 .f32) (b : FVec Ideal S40 .f32)
    (p : Fin 100000) (q : Fin 40) :
    stage3 (F := Ideal) a nd b (ix2 p q) = max (a (ix2 p q) * nd (ix1 p) + b (ix1 q)) (Ideal.ofBits .f32 0x00000000#32) := by
  unfold stage3
  rw [maximumf_apply, addf_apply, mulf_apply, rows_apply, cols_apply, word_apply]

end Cert.ReferenceIdeal.Hand

end
-- ==== Proof.KernelValue.lean ====
/-
  The kernel's result is the network of its seven arguments: each dense stage's output array, read at a row and a column,
  is the reference's stage at that row and column of the same operands — the norms read through their column and
  packed forms, the biases through their row forms — and the aggregations between the stages are the same functions.
-/
import proofs.«131973_j59433757442077_1_alg».proof.Proof.Arrays
import proofs.«131973_j59433757442077_1_alg».proof.Proof.HostChain
import proofs.«131973_j59433757442077_1_alg».proof.Proof.Region0
import proofs.«131973_j59433757442077_1_alg».proof.Proof.Region1
import proofs.«131973_j59433757442077_1_alg».proof.Proof.Region2
import proofs.«131973_j59433757442077_1_alg».proof.Proof.RefLayers
import proofs.«131973_j59433757442077_1_alg».proof.Proof.FrameRun
import proofs.«131973_j59433757442077_1_alg».proof.Proof.LibKeepdims
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.ShloMosaic.ValueIdx Idealize.SL.Sem

namespace Cert.KernelIdeal.Hand

open Cert.KernelIdeal Cert.KernelIdeal.Gen

local notation "refNorm" => Cert.ReferenceIdeal.Hand.norm (F := Ideal)
local notation "refAgg64" => Cert.ReferenceIdeal.Hand.aggregate64 (F := Ideal)
local notation "refAgg40" => Cert.ReferenceIdeal.Hand.aggregate40 (F := Ideal)
local notation "refStage1" => Cert.ReferenceIdeal.Hand.stage1 (F := Ideal)
local notation "refStage2" => Cert.ReferenceIdeal.Hand.stage2 (F := Ideal)
local notation "refStage3" => Cert.ReferenceIdeal.Hand.stage3 (F := Ideal)
local notation "refNetwork" => Cert.ReferenceIdeal.Hand.network (F := Ideal)

variable (m : (ℓ : Loc nD τ sig) → Buf (Elt Ideal) ℓ) (ρ : Dev nD → PrngReg)

/-- The seven arguments at their literal shapes. -/
abbrev argX (c : Dev nD) : FVec Ideal S100000x128 .f32 := m ((c : Thread nD τ).loc main_arg0)
abbrev argSrc (c : Dev nD) : IVec S1600000 32 := m ((c : Thread nD τ).loc main_arg1)
abbrev argDst (c : Dev nD) : IVec S1600000 32 := m ((c : Thread nD τ).loc main_arg2)
abbrev argW1 (c : Dev nD) : FVec Ideal S128x64 .f32 := m ((c : Thread nD τ).loc main_arg3)
abbrev argB1 (c : Dev nD) : FVec Ideal S64 .f32 := m ((c : Thread nD τ).loc main_arg4)
abbrev argW2 (c : Dev nD) : FVec Ideal S64x40 .f32 := m ((c : Thread nD τ).loc main_arg5)
abbrev argB2 (c : Dev nD) : FVec Ideal S40 .f32 := m ((c : Thread nD τ).loc main_arg6)

/-- A norm column at row p is the norm at p. -/
theorem normCol_apply (idx : IVec S1600000 32) (p : Fin 100000) :
    (shapeCast S100000x1 (refNorm idx) shapeCasts_S100000_S100000x1 : FVec Ideal S100000x1 .f32) (ix2 p (0 : Fin 1)) = refNorm idx (ix1 p) :=
  Cert.LibKeepdims.cast_vec_col _ _ p 0

/-- The first stage's output array is the reference's first stage of x, the source norm and W1. -/
theorem out0_eq (c : Dev nD) :
    out0Arr (V5 m ρ) c = refStage1 (argX m c) (refNorm (argSrc m c)) (argW1 m c) := by
  funext i
  obtain ⟨p, q, rfl⟩ : ∃ (p : Fin 100000) (q : Fin 64), i = ix2 p q := ⟨i 0, i 1, eq_ix2 i⟩
  rw [Cert.ReferenceIdeal.Hand.stage1_apply]
  refine (region0_apply (V5 m ρ) c p q).trans ?_
  refine Finset.sum_congr rfl fun k _ => ?_
  have hx : xArr (V5 m ρ) c = argX m c := W5_arg0 m ρ c
  have hw : w1Arr (V5 m ρ) c = argW1 m c := W5_arg3 m ρ c
  have hn : nsCol (V5 m ρ) c (ix2 p (0 : Fin 1)) = refNorm (argSrc m c) (ix1 p) := by
    show (W5 m ρ c (Proc.devRef .tc main_v17) : FVec Ideal S100000x1 .f32) (ix2 p (0 : Fin 1)) = _
    rw [W5_v17]
    exact normCol_apply (argSrc m c) p
  rw [hx, hw, hn]

/-- Two columns side by side: column 0 of the pair is the first column, column 1 the second. -/
theorem pair_apply (x₁ x₂ : FVec Ideal S100000x1 .f32) (p : Fin 100000) :
    (concatenate S100000x2 1 [⟨S100000x1, x₁⟩, ⟨S100000x1, x₂⟩] concatenates_S100000x1_S100000x1_S100000x2_d1 : FVec Ideal S100000x2 .f32) (ix2 p (0 : Fin 2))
        = x₁ (ix2 p (0 : Fin 1))
    ∧ (concatenate S100000x2 1 [⟨S100000x1, x₁⟩, ⟨S100000x1, x₂⟩] concatenates_S100000x1_S100000x1_S100000x2_d1 : FVec Ideal S100000x2 .f32) (ix2 p (1 : Fin 2))
        = x₂ (ix2 p (0 : Fin 1)) := by
  constructor
  · refine concatenate_pair_apply_left (t := S100000x2) (s₁ := S100000x1) (s₂ := S100000x1) (1 : Fin 2) x₁ x₂
      concatenates_S100000x1_S100000x1_S100000x2_d1 (ix2 p (0 : Fin 2)) rfl (ix2 p (0 : Fin 1)) (fun b => ?_)
    match b with
    | ⟨0, _⟩ => rfl
    | ⟨1, _⟩ => rfl
  · refine concatenate_pair_apply_right (t := S100000x2) (s₁ := S100000x1) (s₂ := S100000x1) (1 : Fin 2) x₁ x₂
      concatenates_S100000x1_S100000x1_S100000x2_d1 (ix2 p (1 : Fin 2)) rfl rfl (ix2 p (0 : Fin 1)) (fun b hb => ?_) rfl
    match b, hb with
    | ⟨0, _⟩, _ => rfl
    | ⟨1, _⟩, hb => exact absurd rfl hb

/-- The packed pair's column 0 at row p is the source norm at p; its column 1 is the destination norm at p. -/
theorem normPair_apply (c : Dev nD) (p : Fin 100000) :
    normPair (V7 m ρ) c (ix2 p (0 : Fin 2)) = refNorm (argSrc m c) (ix1 p)
    ∧ normPair (V7 m ρ) c (ix2 p (1 : Fin 2)) = refNorm (argDst m c) (ix1 p) := by
  have e : normPair (V7 m ρ) c = concatenate S100000x2 1
        [⟨S100000x1, shapeCast S100000x1 (refNorm (argSrc m c)) shapeCasts_S100000_S100000x1⟩,
         ⟨S100000x1, shapeCast S100000x1 (refNorm (argDst m c)) shapeCasts_S100000_S100000x1⟩]
        concatenates_S100000x1_S100000x1_S100000x2_d1 := (W7_v19 m ρ c).trans (W5_v19 m ρ c)
  obtain ⟨h0, h1⟩ := pair_apply (shapeCast S100000x1 (refNorm (argSrc m c)) shapeCasts_S100000_S100000x1)
    (shapeCast S100000x1 (refNorm (argDst m c)) shapeCasts_S100000_S100000x1) p
  rw [e]
  exact ⟨h0.trans (normCol_apply (argSrc m c) p), h1.trans (normCol_apply (argDst m c) p)⟩

/-- The second stage's output array is the reference's second stage of the first aggregate, the norms, b1 and W2. -/
theorem out1_eq (c : Dev nD) :
    out1Arr (V7 m ρ) c = refStage2 (refAgg64 (refStage1 (argX m c) (refNorm (argSrc m c)) (argW1 m c)) (argSrc m c) (argDst m c))
        (refNorm (argSrc m c)) (refNorm (argDst m c)) (argB1 m c) (argW2 m c) := by
  funext i
  obtain ⟨p, q, rfl⟩ : ∃ (p : Fin 100000) (q : Fin 40), i = ix2 p q := ⟨i 0, i 1, eq_ix2 i⟩
  rw [Cert.ReferenceIdeal.Hand.stage2_apply]
  refine (region1_apply (V7 m ρ) c p q).trans ?_
  refine Finset.sum_congr rfl fun k _ => ?_
  have ha : agg1Arr (V7 m ρ) c = refAgg64 (refStage1 (argX m c) (refNorm (argSrc m c)) (argW1 m c)) (argSrc m c) (argDst m c) := by
    refine (W7_v30 m ρ c).trans ?_
    exact congrArg (fun h => refAgg64 h (argSrc m c) (argDst m c)) (out0_eq m ρ c)
  have hw : w2Arr (V7 m ρ) c = argW2 m c := W7_arg5 m ρ c
  have hb : b1Row (V7 m ρ) c (ix2 (0 : Fin 1) k) = argB1 m c (ix1 k) := by
    show (W7 m ρ c (Proc.devRef .tc main_v31) : FVec Ideal S1x64 .f32) (ix2 (0 : Fin 1) k) = _
    rw [W7_v31]
    exact shapeCast_a_1a_apply _ _ 0 k
  obtain ⟨hn0, hn1⟩ := normPair_apply m ρ c p
  rw [ha, hw, hb, hn0, hn1]

/-- The third stage's output array is the network of the seven arguments. -/
theorem out2_eq (c : Dev nD) :
    out2Arr (V9 m ρ) c = refNetwork (argX m c) (argSrc m c) (argDst m c) (argW1 m c) (argB1 m c) (argW2 m c) (argB2 m c) := by
  unfold Cert.ReferenceIdeal.Hand.network
  funext i
  obtain ⟨p, q, rfl⟩ : ∃ (p : Fin 100000) (q : Fin 40), i = ix2 p q := ⟨i 0, i 1, eq_ix2 i⟩
  rw [Cert.ReferenceIdeal.Hand.stage3_apply]
  refine (region2_apply (V9 m ρ) c p q).trans ?_
  have ha : agg2Arr (V9 m ρ) c = refAgg40 (refStage2 (refAgg64 (refStage1 (argX m c) (refNorm (argSrc m c)) (argW1 m c)) (argSrc m c) (argDst m c))
        (refNorm (argSrc m c)) (refNorm (argDst m c)) (argB1 m c) (argW2 m c)) (argSrc m c) (argDst m c) := by
    refine (W9_v42 m ρ c).trans ?_
    exact congrArg (fun h => refAgg40 h (argSrc m c) (argDst m c)) (out1_eq m ρ c)
  have hn : ndCol (V9 m ρ) c (ix2 p (0 : Fin 1)) = refNorm (argDst m c) (ix1 p) := by
    show (W9 m ρ c (Proc.devRef .tc main_v18) : FVec Ideal S100000x1 .f32) (ix2 p (0 : Fin 1)) = _
    rw [W9_v18]
    exact normCol_apply (argDst m c) p
  have hb : b2Row (V9 m ρ) c (ix2 (0 : Fin 1) q) = argB2 m c (ix1 q) := by
    show (W9 m ρ c (Proc.devRef .tc main_v43) : FVec Ideal S1x40 .f32) (ix2 (0 : Fin 1) q) = _
    rw [W9_v43]
    exact shapeCast_a_1a_apply _ _ 0 q
  rw [ha, hn, hb]

/-- Every weakly fair execution of the kernel's @main terminates without a fault, its result array at the network of
    its arguments and the arguments as launched. -/
theorem run : θ_run defs (onTc (τ := τ) (main (F := Ideal))) ⟨m, fun _ => 0, ρ⟩ (fun r => ∀ c : Dev nD,
      r.2.mem ((c.tc : Thread nD τ).loc main_v44)
        = refNetwork (argX m c) (argSrc m c) (argDst m c) (argW1 m c) (argB1 m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans ((W10_v44 m ρ c).trans (out2_eq m ρ c)), (h c).2⟩)
    (Cert.KernelIdeal.Named.run_named (F := Ideal) m ρ)

end Cert.KernelIdeal.Hand

end
-- ==== Proof.RefResult.lean ====
/-
  The reference's run ends with its result at the network of its seven arguments: the run's composed term is the
  network's definition written out.
-/
import proofs.«131973_j59433757442077_1_alg».proof.Proof.RefRun
import proofs.«131973_j59433757442077_1_alg».proof.Proof.RefLayers

set_option maxRecDepth 16384

noncomputable section

open Idealize.ShloMosaic Idealize.ShloMosaic.TcCoe Idealize.SL.Sem

namespace Cert.ReferenceIdeal.Hand

open Cert.ReferenceIdeal Cert.ReferenceIdeal.Gen

variable {F : FTy → Type} [FloatOps F]

/-- The composed term of the reference's result is the network of the launch contents of its arguments. -/
theorem res_eq_network (m : (ℓ : Loc nD τ sig) → Buf (Elt F) ℓ) (c : Dev nD) :
    Cert.ReferenceIdeal.Value.res_main_v75 m c
      = network (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  unfold Cert.ReferenceIdeal.Value.res_main_v75 network stage3 aggregate40 stage2 activate64 aggregate64 stage1 norm degree wrapped
  rfl

end Cert.ReferenceIdeal.Hand

end
-- ==== Proof.lean ====
/-
  A two-layer graph convolution with symmetric degree normalisation,
      out = relu (D_in^(-1/2) · A · D_out^(-1/2) · relu (D_in^(-1/2) · A · D_out^(-1/2) · x · W1 + b1) · W2 + b2),
  computed by three tiled dense stages with the two edge aggregations (a row gather along the source indices, a
  scatter-add onto the destination indices) between them, against the same formula written with whole-array operations.

  Over the extended reals the two programs are one function of the seven arguments, operation by operation. Each dense
  stage works on blocks of 10000 rows, and a row of its output depends on the same row of its operands only, so the ten
  blocks it writes back are the restrictions of one whole-array function, which is the reference's stage: a matrix
  product into a zero accumulator is the plain sum over the contracted index, a change of float format is the identity,
  a norm read through its column form (or through the two columns packed side by side) and a bias read through its row
  form are the norm and the bias. The degree norms, the wrapped source indices, the gathers and the scatter-adds are the
  same terms in both programs; the reference computes the norms once per layer and the kernel once in all, from the same
  index vectors. No step rearranges a sum or cancels a factor, so no finiteness of the inputs is used.

  The three frames: the word-level and the idealised kernel by the generated frames; the reference by its run with the
  result dropped. The idealisation rewrote nothing, so what it preserves is trivial.
-/
import proofs.«131973_j59433757442077_1_alg».proof.Defs
import proofs.«131973_j59433757442077_1_alg».proof.Proof.Gen.Kernel
import proofs.«131973_j59433757442077_1_alg».proof.Proof.Gen.Kernel.Frame
import proofs.«131973_j59433757442077_1_alg».proof.Proof.Gen.KernelIdeal
import proofs.«131973_j59433757442077_1_alg».proof.Proof.Gen.KernelIdeal.Frame
import proofs.«131973_j59433757442077_1_alg».proof.Proof.Gen.ReferenceIdeal
import proofs.«131973_j59433757442077_1_alg».proof.Proof.Gen.Pre_finite_inputs
import proofs.«131973_j59433757442077_1_alg».proof.Proof.KernelValue
import proofs.«131973_j59433757442077_1_alg».proof.Proof.RefResult
import Idealize.ShloMosaic.Adequacy
import Idealize.ShloMosaic.Init

noncomputable section

namespace Cert.Proof

open Idealize.ShloMosaic Idealize.SL.Sem

/-- The word-level kernel runs to the end, nothing faulting, its arguments unchanged. -/
theorem frame_kernel : Cert.frame_Kernel := fun m ρ _ => Cert.Kernel.Gen.frame m ρ

/-- The idealised kernel runs to the end, nothing faulting, its arguments unchanged. -/
theorem frame_kernelIdeal : Cert.frame_KernelIdeal := fun m ρ _ => Cert.KernelIdeal.Gen.frame m ρ

/-- The idealised reference runs to the end, nothing faulting, its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the network of those arguments in their
    result arrays. -/
theorem algebraic : Cert.algebraic_KernelIdeal_ReferenceIdeal := by
  intro m ρ m' ρ' _ hagree
  refine ⟨fun c => Cert.ReferenceIdeal.Hand.network (F := Ideal) (Cert.KernelIdeal.Hand.argX m c) (Cert.KernelIdeal.Hand.argSrc m c)
      (Cert.KernelIdeal.Hand.argDst m c) (Cert.KernelIdeal.Hand.argW1 m c) (Cert.KernelIdeal.Hand.argB1 m c)
      (Cert.KernelIdeal.Hand.argW2 m c) (Cert.KernelIdeal.Hand.argB2 m c), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Hand.res_eq_network]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
